-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x60 : Shape := ⟨2, ![131072, 60]⟩
abbrev S256x60 : Shape := ⟨2, ![256, 60]⟩
abbrev S256 : Shape := ⟨1, ![256]⟩
abbrev S360x256 : Shape := ⟨2, ![360, 256]⟩
abbrev S_ : Shape := ⟨0, ![]⟩

class Facts : Prop where
  bcast_S_S131072x60 : S_.BroadcastsInDim S131072x60 (![] : Fin 0 → Fin S131072x60.rank)
  reducesTo_S131072x60_S_d0_1 : S131072x60.ReducesTo [0, 1] S_
  h_S_ : 0 < S_.numel
  bcast_S_S256x60 : S_.BroadcastsInDim S256x60 (![] : Fin 0 → Fin S256x60.rank)
  reducesTo_S256x60_S_d0_1 : S256x60.ReducesTo [0, 1] S_
  bcast_S_S256 : S_.BroadcastsInDim S256 (![] : Fin 0 → Fin S256.rank)
  reducesTo_S256_S_d0 : S256.ReducesTo [0] S_
  bcast_S_S360x256 : S_.BroadcastsInDim S360x256 (![] : Fin 0 → Fin S360x256.rank)
  reducesTo_S360x256_S_d0_1 : S360x256.ReducesTo [0, 1] S_

variable [Facts]

def fn_part1 {F : FTy → Type} [FloatOps F] (main_v13 : IVec S_ 1) (main_v16 : IVec S360x256 1) : IVec S_ 1 :=
  let main_c_5 : IVec S_ 1 := constantI S_ 1 1#1
  let main_v17 : IVec S_ 1 := (fun x v => Host.reduce IntOp.andi x v reducesTo_S360x256_S_d0_1 h_S_) main_v16 main_c_5
  let main_v18 : IVec S_ 1 := andi main_v13 main_v17
  main_v18

def fn {F : FTy → Type} [FloatOps F] (main_arg0 : FVec F S131072x60 .f32) (main_arg1 : FVec F S256x60 .f32) (main_arg2 : FVec F S256 .f32) (main_arg3 : FVec F S360x256 .f32) : IVec S_ 1 :=
  let main_v0 : FVec F S131072x60 .f32 := Host.absf main_arg0
  let main_cst : FVec F S_ .f32 := constant S_ .f32 0x7F800000#32
  let main_v1 : FVec F S131072x60 .f32 := broadcastInDim S131072x60 ![] bcast_S_S131072x60 main_cst
  let main_v2 : IVec S131072x60 1 := cmpf .olt main_v0 main_v1
  let main_c : IVec S_ 1 := constantI S_ 1 1#1
  let main_v3 : IVec S_ 1 := (fun x v => Host.reduce IntOp.andi x v reducesTo_S131072x60_S_d0_1 h_S_) main_v2 main_c
  let main_v4 : FVec F S256x60 .f32 := Host.absf main_arg1
  let main_cst_0 : FVec F S_ .f32 := constant S_ .f32 0x7F800000#32
  let main_v5 : FVec F S256x60 .f32 := broadcastInDim S256x60 ![] bcast_S_S256x60 main_cst_0
  let main_v6 : IVec S256x60 1 := cmpf .olt main_v4 main_v5
  let main_c_1 : IVec S_ 1 := constantI S_ 1 1#1
  let main_v7 : IVec S_ 1 := (fun x v => Host.reduce IntOp.andi x v reducesTo_S256x60_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S360x256 .f32 := Host.absf main_arg3
  let main_cst_4 : FVec F S_ .f32 := constant S_ .f32 0x7F800000#32
  let main_v15 : FVec F S360x256 .f32 := broadcastInDim S360x256 ![] bcast_S_S360x256 main_cst_4
  let main_v16 : IVec S360x256 1 := cmpf .olt main_v14 main_v15
  fn_part1 (F := F) main_v13 main_v16
-- ==== Kernel.lean ====
abbrev S131072x60 : Shape := ⟨2, ![131072, 60]⟩
abbrev S256x60 : Shape := ⟨2, ![256, 60]⟩
abbrev S256 : Shape := ⟨1, ![256]⟩
abbrev S360x256 : Shape := ⟨2, ![360, 256]⟩
abbrev S360 : Shape := ⟨1, ![360]⟩
abbrev S_ : Shape := ⟨0, ![]⟩
abbrev S360x1 : Shape := ⟨2, ![360, 1]⟩
abbrev S256x360 : Shape := ⟨2, ![256, 360]⟩
abbrev S1x256 : Shape := ⟨2, ![1, 256]⟩
abbrev S131072x360 : Shape := ⟨2, ![131072, 360]⟩
abbrev S131072x30x12 : Shape := ⟨3, ![131072, 30, 12]⟩
abbrev S2048x60 : Shape := ⟨2, ![2048, 60]⟩
abbrev S2048x360 : Shape := ⟨2, ![2048, 360]⟩
abbrev S2048 : Shape := ⟨1, ![2048]⟩
abbrev S2048x1 : Shape := ⟨2, ![2048, 1]⟩
abbrev S60x256 : Shape := ⟨2, ![60, 256]⟩
abbrev S2048x256 : Shape := ⟨2, ![2048, 256]⟩

abbrev nBuf : Space → Nat
  | .hbm => 23
  | .vmem => 8
  | .smem => 0
  | _ => 0

abbrev bufTy : (tb : Table) → Fin (tcTables nBuf tb) → BufTy
  | .hbm, ⟨0, _⟩ => ⟨S131072x60, .f32⟩
  | .hbm, ⟨1, _⟩ => ⟨S256x60, .f32⟩
  | .hbm, ⟨2, _⟩ => ⟨S256, .f32⟩
  | .hbm, ⟨3, _⟩ => ⟨S360x256, .f32⟩
  | .hbm, ⟨4, _⟩ => ⟨S360, .i32⟩
  | .hbm, ⟨5, _⟩ => ⟨S_, .i32⟩
  | .hbm, ⟨6, _⟩ => ⟨S360, .i32⟩
  | .hbm, ⟨7, _⟩ => ⟨S360, .i1⟩
  | .hbm, ⟨8, _⟩ => ⟨S_, .i32⟩
  | .hbm, ⟨9, _⟩ => ⟨S360, .i32⟩
  | .hbm, ⟨10, _⟩ => ⟨S360, .i32⟩
  | .hbm, ⟨11, _⟩ => ⟨S360, .i32⟩
  | .hbm, ⟨12, _⟩ => ⟨S360x1, .i32⟩
  | .hbm, ⟨13, _⟩ => ⟨S360x256, .f32⟩
  | .hbm, ⟨14, _⟩ => ⟨S256x360, .f32⟩
  | .hbm, ⟨15, _⟩ => ⟨S256x60, .f32⟩
  | .hbm, ⟨16, _⟩ => ⟨S_, .f32⟩
  | .hbm, ⟨17, _⟩ => ⟨S256, .f32⟩
  | .hbm, ⟨18, _⟩ => ⟨S1x256, .f32⟩
  | .hbm, ⟨19, _⟩ => ⟨S256, .f32⟩
  | .hbm, ⟨20, _⟩ => ⟨S1x256, .f32⟩
  | .hbm, ⟨21, _⟩ => ⟨S131072x360, .f32⟩
  | .hbm, ⟨22, _⟩ => ⟨S131072x30x12, .f32⟩
  | .local _ .vmem, ⟨0, _⟩ => ⟨S2048x60, .f32⟩
  | .local _ .vmem, ⟨1, _⟩ => ⟨S2048x60, .f32⟩
  | .local _ .vmem, ⟨2, _⟩ => ⟨S256x60, .f32⟩
  | .local _ .vmem, ⟨3, _⟩ => ⟨S1x256, .f32⟩
  | .local _ .vmem, ⟨4, _⟩ => ⟨S1x256, .f32⟩
  | .local _ .vmem, ⟨5, _⟩ => ⟨S256x360, .f32⟩
  | .local _ .vmem, ⟨6, _⟩ => ⟨S2048x360, .f32⟩
  | .local _ .vmem, ⟨7, _⟩ => ⟨S2048x360, .f32⟩
  | _, _ => ⟨S131072x60, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_c_1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_cst : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_v0 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x60 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x60 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x360 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x360 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S360 : S_.BroadcastsInDim S360 (![] : Fin 0 → Fin S360.rank)
  bcast_S360_S360x1_0 : S360.BroadcastsInDim S360x1 (![0] : Fin 1 → Fin S360x1.rank)
  transposes_S360x256_S256x360_1_0 : S360x256.Transposes [1, 0] S256x360
  reducesTo_S256x60_S256_d1 : S256x60.ReducesTo [1] S256
  h_S_ : 0 < S_.numel
  shapeCasts_S256_S1x256 : S256.ShapeCasts S1x256
  shapeCasts_S131072x360_S131072x30x12 : S131072x360.ShapeCasts S131072x30x12
  inb_S2048x60_S2048x60_0_0 : ∀ a, (![0, 0] : Fin 2 → Nat) a + S2048x60.size a ≤ S2048x60.size a
  h_S2048x60 : 0 < S2048x60.numel
  inb_S256x60_S256x60_0_0 : ∀ a, (![0, 0] : Fin 2 → Nat) a + S256x60.size a ≤ S256x60.size a
  h_S256x60 : 0 < S256x60.numel
  reduces_S2048x60_S2048 : S2048x60.Reduces [1] S2048
  shapeCasts_S2048_S2048x1 : S2048.ShapeCasts S2048x1
  transposes_S256x60_p1_0_S60x256 : S256x60.Transposes [1, 0] S60x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S2048x1_S2048x256 : S2048x1.Broadcasts S2048x256
  broadcasts_S1x256_S2048x256 : S1x256.Broadcasts S2048x256
  bitsLt_bf16_f32 : FTy.bits .bf16 < FTy.bits .f32
  inb_S256x360_S256x360_0_0 : ∀ a, (![0, 0] : Fin 2 → Nat) a + S256x360.size a ≤ S256x360.size a
  h_S256x360 : 0 < S256x360.numel
  shapeCasts_S256x360_S256x360 : S256x360.ShapeCasts S256x360
  inb_S2048x360_S2048x360_0_0 : ∀ a, (![0, 0] : Fin 2 → Nat) a + S2048x360.size a ≤ S2048x360.size a
  h_S2048x360 : 0 < S2048x360.numel
  gather_S360x256_S360x1_S360x256_1_0_n_n_0_1_1256_wf : GatherDims.WF S360x256 S360x1 S360x256 [1] [0] [] [0] [] 1 ![1, 256]
  dot_S2048x60_S60x256_S2048x256_1_0_0_1_n_n_wf : DotDims.WF S2048x60 S60x256 S2048x256 [1] [0] [0] [1] [] []
  dot_S2048x256_S256x360_S2048x360_1_0_0_1_n_n_wf : DotDims.WF S2048x256 S256x360 S2048x360 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x60.size a ≤ S131072x60.size a
  hwx0_0 : ∀ i : grid0.Coords, EltTy.bits .f32 = 32 ∨ (Rect.block (s := S131072x60) S2048x60.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x60.size a ≤ S256x60.size a
  hwx0_1 : ∀ i : grid0.Coords, EltTy.bits .f32 = 32 ∨ (Rect.block (s := S256x60) S256x60.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x360.size a ≤ S256x360.size a
  hwx0_4 : ∀ i : grid0.Coords, EltTy.bits .f32 = 32 ∨ (Rect.block (s := S256x360) S256x360.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x360.size a ≤ S131072x360.size a
  hwx0_5 : ∀ i : grid0.Coords, EltTy.bits .f32 = 32 ∨ (Rect.block (s := S131072x360) S2048x360.size (cc0_transform_5 i) (hinb0_5 i)).WholeWords (EltTy.packing .f32)

variable [Facts₀]

def gather_S360x256_S360x1_S360x256_1_0_n_n_0_1_1256 : GatherDims S360x256 S360x1 S360x256 where
  offsetDims := [1]
  collapsedSliceDims := [0]
  operandBatchingDims := []
  startIndicesBatchingDims := []
  startIndexMap := [0]
  indexVectorDim := 1
  sliceSizes := ![1, 256]
  wf := gather_S360x256_S360x1_S360x256_1_0_n_n_0_1_1256_wf
def dot_S2048x60_S60x256_S2048x256_1_0_0_1_n_n : DotDims S2048x60 S60x256 S2048x256 where
  lhsContracting := [1]
  rhsContracting := [0]
  lhsNonContracting := [0]
  rhsNonContracting := [1]
  lhsBatch := []
  rhsBatch := []
  wf := dot_S2048x60_S60x256_S2048x256_1_0_0_1_n_n_wf
def dot_S2048x256_S256x360_S2048x360_1_0_0_1_n_n : DotDims S2048x256 S256x360 S2048x360 where
  lhsContracting := [1]
  rhsContracting := [0]
  lhsNonContracting := [0]
  rhsNonContracting := [1]
  lhsBatch := []
  rhsBatch := []
  wf := dot_S2048x256_S256x360_S2048x360_1_0_0_1_n_n_wf

abbrev win0_0 : Pipeline.Window sig grid0 :=
  Pipeline.Window.ofSpec (Memref.whole main_arg0) S2048x60.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x60.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v12) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v10) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v7) S256x360.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v13) S2048x360.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x60 : Shape := ⟨2, ![131072, 60]⟩
abbrev S256x60 : Shape := ⟨2, ![256, 60]⟩
abbrev S256 : Shape := ⟨1, ![256]⟩
abbrev S360x256 : Shape := ⟨2, ![360, 256]⟩
abbrev S_ : Shape := ⟨0, ![]⟩
abbrev S131072 : Shape := ⟨1, ![131072]⟩
abbrev S131072x1 : Shape := ⟨2, ![131072, 1]⟩
abbrev S131072x256 : Shape := ⟨2, ![131072, 256]⟩
abbrev S1x256 : Shape := ⟨2, ![1, 256]⟩
abbrev S131072x360 : Shape := ⟨2, ![131072, 360]⟩
abbrev S131072x10x12x3 : Shape := ⟨4, ![131072, 10, 12, 3]⟩
abbrev S131072x10x3x12 : Shape := ⟨4, ![131072, 10, 3, 12]⟩
abbrev S131072x30x12 : Shape := ⟨3, ![131072, 30, 12]⟩

abbrev nBuf : Space → Nat
  | .hbm => 33
  | .vmem => 0
  | .smem => 0
  | _ => 0

abbrev bufTy : (tb : Table) → Fin (tcTables nBuf tb) → BufTy
  | .hbm, ⟨0, _⟩ => ⟨S131072x60, .f32⟩
  | .hbm, ⟨1, _⟩ => ⟨S256x60, .f32⟩
  | .hbm, ⟨2, _⟩ => ⟨S256, .f32⟩
  | .hbm, ⟨3, _⟩ => ⟨S360x256, .f32⟩
  | .hbm, ⟨4, _⟩ => ⟨S131072x60, .f32⟩
  | .hbm, ⟨5, _⟩ => ⟨S_, .f32⟩
  | .hbm, ⟨6, _⟩ => ⟨S131072, .f32⟩
  | .hbm, ⟨7, _⟩ => ⟨S131072x1, .f32⟩
  | .hbm, ⟨8, _⟩ => ⟨S256x60, .f32⟩
  | .hbm, ⟨9, _⟩ => ⟨S_, .f32⟩
  | .hbm, ⟨10, _⟩ => ⟨S256, .f32⟩
  | .hbm, ⟨11, _⟩ => ⟨S131072x256, .f32⟩
  | .hbm, ⟨12, _⟩ => ⟨S1x256, .f32⟩
  | .hbm, ⟨13, _⟩ => ⟨S131072x256, .f32⟩
  | .hbm, ⟨14, _⟩ => ⟨S131072x256, .f32⟩
  | .hbm, ⟨15, _⟩ => ⟨S131072x256, .f32⟩
  | .hbm, ⟨16, _⟩ => ⟨S_, .f32⟩
  | .hbm, ⟨17, _⟩ => ⟨S131072x256, .f32⟩
  | .hbm, ⟨18, _⟩ => ⟨S131072x256, .f32⟩
  | .hbm, ⟨19, _⟩ => ⟨S131072x256, .f32⟩
  | .hbm, ⟨20, _⟩ => ⟨S_, .f32⟩
  | .hbm, ⟨21, _⟩ => ⟨S131072x256, .f32⟩
  | .hbm, ⟨22, _⟩ => ⟨S131072x256, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S131072x256, .f32⟩
  | .hbm, ⟨27, _⟩ => ⟨S131072x256, .f32⟩
  | .hbm, ⟨28, _⟩ => ⟨S131072x256, .f32⟩
  | .hbm, ⟨29, _⟩ => ⟨S131072x360, .f32⟩
  | .hbm, ⟨30, _⟩ => ⟨S131072x10x12x3, .f32⟩
  | .hbm, ⟨31, _⟩ => ⟨S131072x10x3x12, .f32⟩
  | .hbm, ⟨32, _⟩ => ⟨S131072x30x12, .f32⟩
  | _, _ => ⟨S131072x60, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  reducesTo_S131072x60_S131072_d1 : S131072x60.ReducesTo [1] S131072
  h_S_ : 0 < S_.numel
  bcast_S131072_S131072x1_0 : S131072.BroadcastsInDim S131072x1 (![0] : Fin 1 → Fin S131072x1.rank)
  reducesTo_S256x60_S256_d1 : S256x60.ReducesTo [1] S256
  bcast_S256_S1x256_1 : S256.BroadcastsInDim S1x256 (![1] : Fin 1 → Fin S1x256.rank)
  bcast_S131072x1_S131072x256_0_1 : S131072x1.BroadcastsInDim S131072x256 (![0, 1] : Fin 2 → Fin S131072x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  shapeCasts_S131072x360_S131072x10x12x3 : S131072x360.ShapeCasts S131072x10x12x3
  transposes_S131072x10x12x3_S131072x10x3x12_0_1_3_2 : S131072x10x12x3.Transposes [0, 1, 3, 2] S131072x10x3x12
  shapeCasts_S131072x10x3x12_S131072x30x12 : S131072x10x3x12.ShapeCasts S131072x30x12
  dot_S131072x60_S256x60_S131072x256_1_1_0_0_n_n_wf : DotDims.WF S131072x60 S256x60 S131072x256 [1] [1] [0] [0] [] []
  dot_S131072x256_S360x256_S131072x360_1_1_0_0_n_n_wf : DotDims.WF S131072x256 S360x256 S131072x360 [1] [1] [0] [0] [] []

variable [Facts₀]

def dot_S131072x60_S256x60_S131072x256_1_1_0_0_n_n : DotDims S131072x60 S256x60 S131072x256 where
  lhsContracting := [1]
  rhsContracting := [1]
  lhsNonContracting := [0]
  rhsNonContracting := [0]
  lhsBatch := []
  rhsBatch := []
  wf := dot_S131072x60_S256x60_S131072x256_1_1_0_0_n_n_wf
def dot_S131072x256_S360x256_S131072x360_1_1_0_0_n_n : DotDims S131072x256 S360x256 S131072x360 where
  lhsContracting := [1]
  rhsContracting := [1]
  lhsNonContracting := [0]
  rhsNonContracting := [0]
  lhsBatch := []
  rhsBatch := []
  wf := dot_S131072x256_S360x256_S131072x360_1_1_0_0_n_n_wf

class Facts : Prop extends Facts₀ where

variable [Facts]
-- ==== Proof.Spec.lean ====
/-
  A radial-basis layer followed by a linear read-out, as ONE function of its four arrays, at the ideal values.

  For a row `x` of the input, a centre `c` and a width `s`, the feature is
  `exp (-(s·s) · max (|x|² + |c|² − 2·⟨x, c⟩) 0)`: the squared distance in its expanded form, clamped at zero.
  The read-out contracts the 256 features of a row against a row of the weight matrix, and the 360 read-outs of
  a row are laid out as 30 × 12 after the middle two axes of a 10 × 12 × 3 arrangement have been exchanged:
  position `(r, q)` holds read-out `(r / 3)·36 + q·3 + r % 3`.
  All sums are sums on the extended reals: they commute and associate, so nothing here asks for finite entries.
-/
import Idealize.ShloMosaic.Lib.ValueIdx
import Idealize.ShloMosaic.PureOps.Ideal.Laws

noncomputable section

open scoped BigOperators

namespace Rbf

open Idealize.ShloMosaic Idealize.ShloMosaic.ValueIdx

/-- The literal two, as both programs spell it (its value is never needed). -/
abbrev two : EReal := Ideal.ofBits .f32 0x40000000#32

/-- The squared norm of a vector of 60 entries. -/
def sqnorm (c : Fin 60 → EReal) : EReal := ∑ k : Fin 60, c k * c k

/-- One Gaussian feature from a row `x`, a centre `c`, the centre's squared norm `c2` and the squared width `s2`. -/
def gauss (x c : Fin 60 → EReal) (c2 s2 : EReal) : EReal :=
  Ideal.exp (-s2 * max (sqnorm x + c2 - two * ∑ k : Fin 60, x k * c k) 0)

/-- The feature of input row `b` against centre `h`. -/
def feature (X : (⟨2, ![131072, 60]⟩ : Shape).Idx → EReal) (C : (⟨2, ![256, 60]⟩ : Shape).Idx → EReal)
    (S : (⟨1, ![256]⟩ : Shape).Idx → EReal) (b : Fin 131072) (h : Fin 256) : EReal :=
  gauss (fun k => X (ix2 b k)) (fun k => C (ix2 h k)) (sqnorm fun k => C (ix2 h k)) (S (ix1 h) * S (ix1 h))

/-- Read-out `o` of input row `b`: the features against row `o` of the weights. -/
def readout (X : (⟨2, ![131072, 60]⟩ : Shape).Idx → EReal) (C : (⟨2, ![256, 60]⟩ : Shape).Idx → EReal)
    (S : (⟨1, ![256]⟩ : Shape).Idx → EReal) (W : (⟨2, ![360, 256]⟩ : Shape).Idx → EReal) (b : Fin 131072) (o : Fin 360) : EReal :=
  ∑ h : Fin 256, feature X C S b h * W (ix2 o h)

/-- Which read-out lands at position `(r, q)` of the 30 × 12 layout. -/
def place (r : Fin 30) (q : Fin 12) : Fin 360 :=
  ⟨r.val / 3 * 36 + q.val * 3 + r.val % 3, by have := r.isLt; have := q.isLt; omega⟩

/-- The whole result. -/
def result (X : (⟨2, ![131072, 60]⟩ : Shape).Idx → EReal) (C : (⟨2, ![256, 60]⟩ : Shape).Idx → EReal)
    (S : (⟨1, ![256]⟩ : Shape).Idx → EReal) (W : (⟨2, ![360, 256]⟩ : Shape).Idx → EReal) :
    (⟨3, ![131072, 30, 12]⟩ : Shape).Idx → EReal :=
  fun i => readout X C S W (i 0) (place (i 1) (i 2))

/-- The reference's layout steps on flat positions: a row of 360 is cut as 10 × 12 × 3, its last two axes are exchanged,
    and the result is cut as 30 × 12. Followed backwards from position `(r, q)` of row `b`, the flat position read is
    `360·b + (r / 3)·36 + q·3 + r % 3`: the row is kept and the read-out is `place r q`. -/
theorem place_arith (b r q : ℕ) (hr : r < 30) (hq : q < 12) :
    ((((((b * 30 + r) * 12 + q) / 360 * 10 + ((b * 30 + r) * 12 + q) / 36 % 10) * 12 + ((b * 30 + r) * 12 + q) % 12) * 3
        + ((b * 30 + r) * 12 + q) / 12 % 3) / 360 = b)
    ∧ ((((((b * 30 + r) * 12 + q) / 360 * 10 + ((b * 30 + r) * 12 + q) / 36 % 10) * 12 + ((b * 30 + r) * 12 + q) % 12) * 3
        + ((b * 30 + r) * 12 + q) / 12 % 3) % 360 = r / 3 * 36 + q * 3 + r % 3) := by
  have a1 : ((b * 30 + r) * 12 + q) / 360 = b := by omega
  have a2 : ((b * 30 + r) * 12 + q) / 36 = 10 * b + r / 3 := by omega
  have a3 : ((b * 30 + r) * 12 + q) % 12 = q := by omega
  have a4 : ((b * 30 + r) * 12 + q) / 12 = 30 * b + r := by omega
  rw [a1, a2, a3, a4]
  have a5 : (10 * b + r / 3) % 10 = r / 3 := by omega
  have a6 : (30 * b + r) % 3 = r % 3 := by omega
  rw [a5, a6]
  constructor <;> omega

/-- The kernel's layout on flat positions: it computes read-out `o / 36 · 36 + (o % 12)·3 + (o / 12) % 3` at flat position `o`
    of a row, and position `(r, q)` of the 30 × 12 layout is flat position `r·12 + q`: again `place r q`. -/
theorem place_flat (r q : ℕ) (hr : r < 30) (hq : q < 12) :
    (r * 12 + q) / 36 * 36 + (r * 12 + q) % 12 * 3 + (r * 12 + q) / 12 % 3 = r / 3 * 36 + q * 3 + r % 3 := by
  have a1 : (r * 12 + q) / 36 = r / 3 := by omega
  have a2 : (r * 12 + q) % 12 = q := by omega
  have a3 : (r * 12 + q) / 12 = r := by omega
  rw [a1, a2, a3]

/-- Zero minus a value is its negation, on every extended real. -/
theorem zero_sub_eq_neg (a : EReal) : (0 : EReal) - a = -a := by
  rw [sub_eq_add_neg, zero_add]

end Rbf

end
-- ==== Proof.RefValue.lean ====
/-
  The reference computes the specification.

  Its stages are read one at a time at an index: the two squared norms are sums from a zero that adds nothing,
  the cross term is the contraction of a row with a centre, the read-out the contraction of a row of features with a
  row of the weights, and the closing reshape / transpose / reshape sends position `(r, q)` of the 30 × 12 layout to
  read-out `(r / 3)·36 + q·3 + r % 3`.
-/
import proofs.«146891_j66649302499334_1_alg».proof.Proof.Gen.ReferenceIdeal.Read
import proofs.«146891_j66649302499334_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨S131072x60, .f32⟩ : BufTy).Contents (Elt Ideal)) (x1 : (⟨S256x60, .f32⟩ : BufTy).Contents (Elt Ideal))
  (x2 : (⟨S256, .f32⟩ : BufTy).Contents (Elt Ideal)) (x3 : (⟨S360x256, .f32⟩ : BufTy).Contents (Elt Ideal))

/-- The squared norm of input row `i`. -/
theorem row_sqnorm (i : S131072.Idx) :
    val_main_v1 (F := Ideal) x0 i = Rbf.sqnorm (fun k => x0 (ix2 (i 0 : Fin 131072) k)) := by
  rw [val_main_v1_apply]
  show Ideal.ofBits .f32 0x00000000#32 + ∑ k : Fin 60, x0 (idx_main_v1 i k) * x0 (idx_main_v1 i k) = _
  rw [Ideal.ofBits_zero_f32, zero_add]
  unfold Rbf.sqnorm
  refine Finset.sum_congr rfl fun k _ => ?_
  have e : idx_main_v1 i k = ix2 (i 0 : Fin 131072) k :=
    funext fun a => Fin.ext (by match a with | ⟨0, _⟩ => rfl | ⟨1, _⟩ => rfl)
  rw [e]
  rfl

/-- The squared norm of centre `i`. -/
theorem centre_sqnorm (i : S256.Idx) :
    val_main_v4 (F := Ideal) x1 i = Rbf.sqnorm (fun k => x1 (ix2 (i 0 : Fin 256) k)) := by
  rw [val_main_v4_apply]
  show Ideal.ofBits .f32 0x00000000#32 + ∑ k : Fin 60, x1 (idx_main_v4 i k) * x1 (idx_main_v4 i k) = _
  rw [Ideal.ofBits_zero_f32, zero_add]
  unfold Rbf.sqnorm
  refine Finset.sum_congr rfl fun k _ => ?_
  have e : idx_main_v4 i k = ix2 (i 0 : Fin 256) k :=
    funext fun a => Fin.ext (by match a with | ⟨0, _⟩ => rfl | ⟨1, _⟩ => rfl)
  rw [e]
  rfl

/-- The inner product of input row `j 0` with centre `j 1`. -/
theorem cross (j : S131072x256.Idx) :
    val_main_v5 (F := Ideal) x0 x1 j = ∑ k : Fin 60, x0 (ix2 (j 0 : Fin 131072) k) * x1 (ix2 (j 1 : Fin 256) k) := by
  rw [val_main_v5_apply]
  refine Finset.sum_congr rfl fun k _ => ?_
  have el : lidx_main_v5 j k = ix2 (j 0 : Fin 131072) k :=
    funext fun a => Fin.ext (by match a with | ⟨0, _⟩ => rfl | ⟨1, _⟩ => rfl)
  have er : ridx_main_v5 j k = ix2 (j 1 : Fin 256) k :=
    funext fun a => Fin.ext (by match a with | ⟨0, _⟩ => rfl | ⟨1, _⟩ => rfl)
  rw [el, er]
  rfl

/-- The feature of input row `j 0` against centre `j 1`. -/
theorem feature_eq (j : S131072x256.Idx) :
    val_main_v20 (F := Ideal) x0 x1 x2 j = Rbf.feature x0 x1 x2 (j 0) (j 1) := by
  have e15 : idx_main_v15 (idx_main_v18 j) = ix1 (j 1 : Fin 256) :=
    funext fun a => Fin.ext (by match a with | ⟨0, _⟩ => rfl)
  rw [val_main_v20_apply, val_main_v19_apply, val_main_v18_apply, val_main_v17_apply, val_main_v16_apply, val_main_v15_apply,
    val_main_v14_apply, val_main_v13_apply, val_main_cst_2_apply, val_main_v12_apply, val_main_v11_apply, val_main_v10_apply,
    val_main_cst_1_apply, cross, val_main_v9_apply, val_main_v7_apply, val_main_v2_apply, row_sqnorm, val_main_v8_apply,
    val_main_v6_apply, centre_sqnorm, e15]
  show Ideal.exp (-(x2 (ix1 (j 1 : Fin 256)) * x2 (ix1 (j 1 : Fin 256))) * max (_ + _ - Ideal.ofBits .f32 0x40000000#32 * _) (Ideal.ofBits .f32 0x00000000#32)) = _
  rw [Ideal.ofBits_zero_f32]
  rfl

/-- Read-out `j 1` of input row `j 0`. -/
theorem readout_eq (j : S131072x360.Idx) :
    val_main_v21 (F := Ideal) x0 x1 x2 x3 j = Rbf.readout x0 x1 x2 x3 (j 0) (j 1) := by
  rw [val_main_v21_apply]
  unfold Rbf.readout
  refine Finset.sum_congr rfl fun h _ => ?_
  have er : ridx_main_v21 j h = ix2 (j 1 : Fin 360) h :=
    funext fun a => Fin.ext (by match a with | ⟨0, _⟩ => rfl | ⟨1, _⟩ => rfl)
  rw [feature_eq, er]
  rfl

/-- The reference's result is the specification. -/
theorem result_eq : val_main_v24 (F := Ideal) x0 x1 x2 x3 = Rbf.result x0 x1 x2 x3 := by
  funext i
  rw [val_main_v24_apply, val_main_v23_apply, val_main_v22_apply, readout_eq]
  have h0 : (i 0).val < 131072 := (i 0).isLt
  have h1 : (i 1).val < 30 := (i 1).isLt
  have h2 : (i 2).val < 12 := (i 2).isLt
  obtain ⟨a0, a1⟩ := Rbf.place_arith (i 0).val (i 1).val (i 2).val h1 h2
  have e0 : idx_main_v22 (idx_main_v23 (idx_main_v24 i)) 0 = (i 0 : Fin 131072) := Fin.ext a0
  have e1 : idx_main_v22 (idx_main_v23 (idx_main_v24 i)) 1 = Rbf.place (i 1) (i 2) := Fin.ext a1
  rw [e0, e1]
  rfl

end Cert.ReferenceIdeal.RefValue

end
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.Body.lean ====
/-
  What one grid point's body computes, entry by entry.

  A body sees 2048 rows of the input, all 256 centres, the row of the centres' squared norms, the row of squared
  widths and the rearranged weights (256 × 360). Entry `(p, q)` of its result is the contraction over the 256 centres
  of the feature of row `p` with entry `(h, q)` of the weights; the feature is the Gaussian of the clamped squared
  distance in expanded form, where the kernel writes the negated squared width as a difference from zero and the row's
  squared norm as a lane sum with nothing added.
-/
import proofs.«146891_j66649302499334_1_alg».proof.Proof.Gen.KernelIdeal.Skeleton
import proofs.«146891_j66649302499334_1_alg».proof.Proof.Spec
import proofs.«146891_j66649302499334_1_alg».proof.Proof.LibRowOps

noncomputable section

open scoped BigOperators

namespace Cert.KernelIdeal.Body

open Cert.KernelIdeal Cert.KernelIdeal.Gen Idealize.ShloMosaic Idealize.ShloMosaic.ValueIdx

variable (v0 : FVec Ideal S2048x60 .f32) (v1 : FVec Ideal S256x60 .f32) (v7 v17 : FVec Ideal S1x256 .f32)
  (v25 : FVec Ideal S256x360 .f32)

/-- The squared norms of the block's rows, kept as a column. -/
def rowsq : FVec Ideal S2048x1 .f32 :=
  shapeCast S2048x1 (multiReduction (F := Ideal) .add [1] S2048 (mulf v0 v0) 0x00000000#32 reduces_S2048x60_S2048 (.inl rfl) rfl)
    shapeCasts_S2048_S2048x1

/-- The rows against the centres: the block times the centres transposed, into zero. -/
def crossBlock : FVec Ideal S2048x256 .f32 :=
  matmul (F := Ideal) dot_S2048x60_S60x256_S2048x256_1_0_0_1_n_n none v0
    (transpose S60x256 [1, 0] v1 transposes_S256x60_p1_0_S60x256) (constant (F := Ideal) S2048x256 .f32 0x00000000#32)

/-- The block of features: 2048 rows against the 256 centres. -/
def feats : FVec Ideal S2048x256 .f32 :=
  exp (mulf
    (broadcastTo S2048x256 (subf (broadcast S1x256 (Scalar.ofBits (F := Ideal) .f32 0x00000000#32)) (shapeCast S1x256 v17 shapeCasts_S1x256_S1x256))
      broadcasts_S1x256_S2048x256)
    (maximumf
      (subf
        (addf (broadcastTo S2048x256 (rowsq v0) broadcasts_S2048x1_S2048x256)
          (broadcastTo S2048x256 (shapeCast S1x256 v7 shapeCasts_S1x256_S1x256) broadcasts_S1x256_S2048x256))
        (mulf (broadcast S2048x256 (Scalar.ofBits (F := Ideal) .f32 0x40000000#32)) (crossBlock v0 v1)))
      (broadcast S2048x256 (Scalar.ofBits (F := Ideal) .f32 0x00000000#32))))

/-- The body's stored value is the features (narrowed) times the weights (narrowed), into zero. -/
theorem payload_eq :
    k0_pay1 (F := Ideal) v0 v1 v7 v17 v25
      = matmul (F := Ideal) dot_S2048x256_S256x360_S2048x360_1_0_0_1_n_n none (truncf .bf16 (feats v0 v1 v7 v17) bitsLt_bf16_f32)
          (truncf .bf16 (shapeCast S256x360 v25 shapeCasts_S256x360_S256x360) bitsLt_bf16_f32)
          (constant (F := Ideal) S2048x360 .f32 0x00000000#32) := rfl

/-- A column `[a]` cast to `[a, 1]` reads, at `(p, 0)`, the operand at `p`. -/
theorem shapeCast_a_a1_apply {a : ℕ} {α : Type} (x : (⟨1, ![a]⟩ : Shape).Idx → α) (h : (⟨1, ![a]⟩ : Shape).ShapeCasts ⟨2, ![a, 1]⟩)
    (p : Fin a) : shapeCast ⟨2, ![a, 1]⟩ x h (ix2 p (0 : Fin 1)) = x (ix1 p) :=
  shapeCast_apply x h _ _ (by
    rw [Shape.rowMajor_val_two, Shape.rowMajor_val_one]
    show p.val = p.val * 1 + 0
    omega)

/-- The squared norm of row `p` of the block. -/
theorem rowsq_apply (p : Fin 2048) : rowsq v0 (ix2 p (0 : Fin 1)) = Rbf.sqnorm (fun k => v0 (ix2 p k)) := by
  unfold rowsq
  rw [shapeCast_a_a1_apply]
  refine (Ideal.multiReduction_add_single (mulf v0 v0) 0x00000000#32 reduces_S2048x60_S2048 (.inl rfl) rfl (ix1 p)).trans ?_
  unfold Rbf.sqnorm
  refine Finset.sum_congr rfl fun k _ => ?_
  have e : reduces_S2048x60_S2048.lift (ix1 p) k = ix2 p (⟨k.val, k.isLt⟩ : Fin 60) :=
    funext fun a => Fin.ext (by match a with | ⟨0, _⟩ => rfl | ⟨1, _⟩ => rfl)
  rw [e]
  rfl

/-- Row `p` of the block against centre `h`. -/
theorem crossBlock_apply (p : Fin 2048) (h : Fin 256) :
    crossBlock v0 v1 (ix2 p h) = ∑ k : Fin 60, v0 (ix2 p k) * v1 (ix2 h k) := by
  unfold crossBlock
  rw [RowOps.matmul_plain_apply dot_S2048x60_S60x256_S2048x256_1_0_0_1_n_n rfl]
  refine Finset.sum_congr rfl fun k _ => ?_
  rw [transpose_ix2_apply]

/-- The feature of row `p` against centre `h`, from the loaded rows of squared norms and squared widths. -/
theorem feats_apply (p : Fin 2048) (h : Fin 256) :
    feats v0 v1 v7 v17 (ix2 p h)
      = Rbf.gauss (fun k => v0 (ix2 p k)) (fun k => v1 (ix2 h k)) (v7 (ix2 (0 : Fin 1) h)) (v17 (ix2 (0 : Fin 1) h)) := by
  unfold feats
  show Ideal.exp (broadcastTo S2048x256 _ broadcasts_S1x256_S2048x256 (ix2 p h)
      * max (broadcastTo S2048x256 (rowsq v0) broadcasts_S2048x1_S2048x256 (ix2 p h)
          + broadcastTo S2048x256 (shapeCast S1x256 v7 shapeCasts_S1x256_S1x256) broadcasts_S1x256_S2048x256 (ix2 p h)
          - Ideal.ofBits .f32 0x40000000#32 * crossBlock v0 v1 (ix2 p h)) (Ideal.ofBits .f32 0x00000000#32)) = _
  rw [shapeCast_self, shapeCast_self, broadcastTo_1b_ab_apply, RowOps.broadcastTo_a1_ab_apply, broadcastTo_1b_ab_apply,
    rowsq_apply, crossBlock_apply, Ideal.ofBits_zero_f32]
  show Ideal.exp ((Ideal.ofBits .f32 0x00000000#32 - v17 (ix2 (0 : Fin 1) h)) * _) = _
  rw [Ideal.ofBits_zero_f32, Rbf.zero_sub_eq_neg]
  rfl

/-- THE BODY'S RESULT at `(p, q)`. -/
theorem payload_apply (p : Fin 2048) (q : Fin 360) :
    k0_pay1 (F := Ideal) v0 v1 v7 v17 v25 (ix2 p q)
      = ∑ h : Fin 256, Rbf.gauss (fun k => v0 (ix2 p k)) (fun k => v1 (ix2 h k)) (v7 (ix2 (0 : Fin 1) h)) (v17 (ix2 (0 : Fin 1) h))
          * v25 (ix2 h q) := by
  rw [payload_eq, RowOps.matmul_plain_apply dot_S2048x256_S256x360_S2048x360_1_0_0_1_n_n rfl]
  refine Finset.sum_congr rfl fun h _ => ?_
  show feats v0 v1 v7 v17 (ix2 p h) * shapeCast S256x360 v25 shapeCasts_S256x360_S256x360 (ix2 h q) = _
  rw [feats_apply, shapeCast_self]

end Cert.KernelIdeal.Body

end
-- ==== Proof.LibGatherRows.lean ====
/-
  A row gather read at an index.

  `table[idx, :]` for a matrix `table : [N, C]` and a column of start indices `idx : [n, 1]` lowers to a gather whose
  result `[n, C]` keeps axis 1 of the table as its offset axis and collapses axis 0, the start index naming a row.
  Result entry `(p, q)` is the table's entry `(r, q)`, where `r` is start index `p` read as a signed integer and
  clamped into `[0, N − 1]`.  Generic in the extents and in the index width.
-/
import Idealize.ShloMosaic.Lib.ValueIdx

noncomputable section

namespace RowGather

open Idealize.ShloMosaic Idealize.ShloMosaic.ValueIdx

/-- THE ROW GATHER READ AT `(p, q)`. The five hypotheses are the printed dimension numbers, each by `rfl`. -/
theorem gather_rows_apply {α : Type} {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1) (hN : 0 < N)
    (x : (⟨2, ![N, C]⟩ : Shape).Idx → α) (idx : IVec ⟨2, ![n, 1]⟩ w) (p : Fin n) (q : Fin C) :
    Host.gather d x idx (ix2 p q)
      = x (ix2 (⟨min (idx (ix2 p (0 : Fin 1))).toInt.toNat (N - 1), by omega⟩ : Fin N) q) := by
  obtain ⟨od, cd, obd, sbd, sim, ivd, ss, wf⟩ := d
  dsimp only at hoff hcoll hob hsim hivd
  subst hoff hcoll hob hsim hivd
  unfold Host.gather
  refine congrArg x (funext fun a => Fin.ext ?_)
  match a with
  | ⟨0, _⟩ =>
    have hsl : ss 0 = 1 := GatherDims.slice_collapsed ⟨[1], [0], [], sbd, [0], 1, ss, wf⟩ 0 (List.mem_singleton.mpr rfl)
    show GatherDims.start _ (ix2 p q) idx 0 + GatherDims.batchCoord _ (ix2 p q) 0 + GatherDims.offCoord _ (ix2 p q) 0 = _
    rw [GatherDims.batchCoord_eq_zero _ _ _ List.not_mem_nil,
      GatherDims.offCoord_eq_zero _ _ _ (fun h => ((GatherDims.mem_sKept _ _).mp h).1 (List.mem_singleton.mpr rfl)),
      Nat.add_zero]
    unfold GatherDims.start
    rw [dif_pos (List.mem_singleton.mpr rfl)]
    show min (idx _).toInt.toNat (N - ss 0) = min (idx (ix2 p (0 : Fin 1))).toInt.toNat (N - 1)
    rw [hsl]
    congr 3
    congr 1
    funext b
    apply Fin.ext
    match b with
    | ⟨0, _⟩ => rfl
    | ⟨1, _⟩ => rfl
  | ⟨1, _⟩ =>
    show GatherDims.start _ (ix2 p q) idx 1 + GatherDims.batchCoord _ (ix2 p q) 1 + GatherDims.offCoord _ (ix2 p q) 1 = q.val
    rw [GatherDims.batchCoord_eq_zero _ _ _ List.not_mem_nil]
    unfold GatherDims.start GatherDims.offCoord
    rw [dif_neg (fun h => Nat.one_ne_zero (show (1 : ℕ) = 0 from congrArg Fin.val (List.mem_singleton.mp h))),
      dif_pos ((GatherDims.mem_sKept _ _).mpr
        ⟨fun h => Nat.one_ne_zero (show (1 : ℕ) = 0 from congrArg Fin.val (List.mem_singleton.mp h)), List.not_mem_nil⟩)]
    show 0 + 0 + (ix2 p q _).val = q.val
    rw [Nat.zero_add]
    rfl

end RowGather

end
-- ==== Proof.Entry.lean ====
/-
  What the region finds in the three arrays the host computes before it.

  The row of squared widths is the widths squared, entry by entry. The row of the centres' squared norms is, at each
  centre, the sum of its squared entries from a zero that adds nothing. The rearranged weights are the weight matrix
  with its rows gathered through a literal table of 360 start indices and then transposed: entry `(h, q)` is the weight
  matrix's entry `(krow q, h)`, where the table's entry at `q`, brought into range by the printed comparison with zero
  and clamped, is `q / 36 · 36 + (q % 12)·3 + (q / 12) % 3` — decided once over the 360 positions.
-/
import proofs.«146891_j66649302499334_1_alg».proof.Proof.Gen.KernelIdeal.Frame
import proofs.«146891_j66649302499334_1_alg».proof.Proof.Spec
import Idealize.ShloMosaic.Lib.ValueLayout
import Idealize.ShloMosaic.Lib.IdealHost
import Idealize.ShloMosaic.Lib.StableHlo.Run
import Idealize.ShloMosaic.Lib.Pipeline.Value
import Idealize.ShloMosaic.PureOps.Ideal.Laws
import proofs.«146891_j66649302499334_1_alg».proof.Proof.LibGatherRows

noncomputable section

open scoped BigOperators

namespace Cert.KernelIdeal.Entry

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ)

/-- The four argument arrays as launched, at their literal types. -/
abbrev argX (c : Dev nD) : FVec Ideal S131072x60 .f32 := m ((c : Thread nD τ).loc main_arg0)
abbrev argC (c : Dev nD) : FVec Ideal S256x60 .f32 := m ((c : Thread nD τ).loc main_arg1)
abbrev argS (c : Dev nD) : FVec Ideal S256 .f32 := m ((c : Thread nD τ).loc main_arg2)
abbrev argW (c : Dev nD) : FVec Ideal S360x256 .f32 := m ((c : Thread nD τ).loc main_arg3)

/-- The start indices of the row gather, as the host prefix computes them from the literal table. -/
def rowIdx : IVec S360x1 32 :=
  broadcastInDim S360x1 ![0] bcast_S360_S360x1_0
    (select (cmpi .slt (fun i => lit0 (S360.rowMajor i)) (broadcastInDim S360 ![] bcast_S_S360 (constantI S_ 32 0#32)))
      (addi (fun i => lit0 (S360.rowMajor i)) (broadcastInDim S360 ![] bcast_S_S360 (constantI S_ 32 360#32)))
      (fun i => lit0 (S360.rowMajor i)))

theorem widths_entry (c : Dev nD) :
    (V m c main_call0_v12 : S1x256.Idx → EReal)
      = shapeCast S1x256 (mulf (F := Ideal) (φ := .f32) (m ((c : Thread nD τ).loc main_arg2)) (m ((c : Thread nD τ).loc main_arg2))) shapeCasts_S256_S1x256 := by
  show StableHlo.after hostOps0 (fun b => m (c, b)) (Proc.devRef .tc main_call0_v12) = _
  after_results
  rfl

theorem norms_entry (c : Dev nD) :
    (V m c main_call0_v10 : S1x256.Idx → EReal)
      = shapeCast S1x256 (Host.reduceAdd (F := Ideal) (φ := .f32) (mulf (F := Ideal) (φ := .f32) (m ((c : Thread nD τ).loc main_arg1)) (m ((c : Thread nD τ).loc main_arg1)))
          (constant (F := Ideal) S_ .f32 0x00000000#32) reducesTo_S256x60_S256_d1 h_S_) shapeCasts_S256_S1x256 := by
  show StableHlo.after hostOps0 (fun b => m (c, b)) (Proc.devRef .tc main_call0_v10) = _
  after_results
  rfl

theorem weights_entry (c : Dev nD) :
    (V m c main_call0_v7 : S256x360.Idx → EReal)
      = transpose S256x360 [1, 0] (Host.gather gather_S360x256_S360x1_S360x256_1_0_n_n_0_1_1256 (m ((c : Thread nD τ).loc main_arg3)) rowIdx)
          transposes_S360x256_S256x360_1_0 := by
  show StableHlo.after hostOps0 (fun b => m (c, b)) (Proc.devRef .tc main_call0_v7) = _
  after_results
  rfl

/-- The row of the weight matrix that the table names for flat position `o` of an output row. -/
def krow (o : Fin 360) : Fin 360 :=
  ⟨o.val / 36 * 36 + o.val % 12 * 3 + o.val / 12 % 3, by have := o.isLt; omega⟩

/-- The literal table, entry by entry: each word is non-negative, so the printed `select` keeps it, and it is in range,
    so the gather's clamp keeps it; its value is the exchange of the last two axes of a 10 × 12 × 3 arrangement. -/
theorem table_fact : ∀ o : Fin 360,
    min (Scalar.select (IntOp.cmpi .slt (lit0 o) 0#32) (IntOp.addi (lit0 o) 360#32) (lit0 o)).toInt.toNat 359
      = o.val / 36 * 36 + o.val % 12 * 3 + o.val / 12 % 3 := by
  decide +kernel

/-- The start index of result row `q`. -/
theorem rowIdx_apply (q : Fin 360) :
    rowIdx (ix2 q (0 : Fin 1)) = Scalar.select (IntOp.cmpi .slt (lit0 q) 0#32) (IntOp.addi (lit0 q) 360#32) (lit0 q) := by
  unfold rowIdx
  rw [broadcastInDim_apply _ bcast_S360_S360x1_0 _ (ix2 q (0 : Fin 1)) (ix1 q) (fun a => by
    match a with
    | ⟨0, _⟩ => show q.val = if (360 : ℕ) = 1 then 0 else q.val; rw [if_neg (by decide)])]
  have e : (S360.rowMajor (ix1 q) : Fin 360) = q := Fin.ext (Shape.rowMajor_val_one _)
  show Scalar.select (IntOp.cmpi .slt (lit0 (S360.rowMajor (ix1 q))) 0#32) (IntOp.addi (lit0 (S360.rowMajor (ix1 q))) 360#32)
      (lit0 (S360.rowMajor (ix1 q))) = _
  rw [e]

/-- The squared width of centre `h`. -/
theorem widths_apply (c : Dev nD) (h : Fin 256) :
    (V m c main_call0_v12 : S1x256.Idx → EReal) (ix2 (0 : Fin 1) h) = argS m c (ix1 h) * argS m c (ix1 h) := by
  rw [widths_entry, shapeCast_a_1a_apply]
  rfl

/-- The squared norm of centre `h`. -/
theorem norms_apply (c : Dev nD) (h : Fin 256) :
    (V m c main_call0_v10 : S1x256.Idx → EReal) (ix2 (0 : Fin 1) h)
      = Rbf.sqnorm (fun k => argC m c (ix2 h k)) := by
  have hr : S256x60.Reduces [1] S256 := by decide
  rw [norms_entry, shapeCast_a_1a_apply, hostReduceAdd_apply, Ideal.hostReduceAdd_single reducesTo_S256x60_S256_d1 hr]
  show Ideal.ofBits .f32 0x00000000#32 + _ = _
  rw [Ideal.ofBits_zero_f32, zero_add]
  unfold Rbf.sqnorm
  refine Finset.sum_congr rfl fun k _ => ?_
  have e : hr.lift (ix1 h) k = ix2 h (⟨k.val, k.isLt⟩ : Fin 60) :=
    funext fun a => Fin.ext (by match a with | ⟨0, _⟩ => rfl | ⟨1, _⟩ => rfl)
  show argC m c (hr.lift (ix1 h) k) * argC m c (hr.lift (ix1 h) k) = _
  rw [e]
  rfl

/-- Entry `(h, q)` of the rearranged weights. -/
theorem weights_apply (c : Dev nD) (h : Fin 256) (q : Fin 360) :
    (V m c main_call0_v7 : S256x360.Idx → EReal) (ix2 h q) = argW m c (ix2 (krow q) h) := by
  rw [weights_entry, transpose_ix2_apply, RowGather.gather_rows_apply _ rfl rfl rfl rfl rfl (by decide)]
  refine congrArg (argW m c) ?_
  refine congrArg (fun r : Fin 360 => ix2 r h) (Fin.ext ?_)
  show min (rowIdx (ix2 q (0 : Fin 1))).toInt.toNat (360 - 1) = _
  rw [rowIdx_apply]
  exact table_fact q

end Cert.KernelIdeal.Entry

end
-- ==== Proof.Flat.lean ====
/-
  The kernel's flat output array after the run.

  Grid point `t` sees rows `2048·t … 2048·t + 2047` of the input and the three small arrays whole, and writes back the
  same rows of the output. So the output array ends as ONE function of the arguments: entry `(b, o)` is the read-out of
  input row `b` against the weight row the table names for `o`. The 64 blocks cover the array: row `b` lies in block
  `b / 2048`.
-/
import proofs.«146891_j66649302499334_1_alg».proof.Proof.Gen.KernelIdeal.Frame
import proofs.«146891_j66649302499334_1_alg».proof.Proof.Body
import proofs.«146891_j66649302499334_1_alg».proof.Proof.Entry
import Idealize.ShloMosaic.Lib.Pipeline.Value

set_option maxRecDepth 16384

noncomputable section

open scoped BigOperators

namespace Cert.KernelIdeal.Flat

open Cert.KernelIdeal Cert.KernelIdeal.Gen Cert.KernelIdeal.Entry
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The flat output: entry `(b, o)`. -/
def flat (c : Dev nD) : S131072x360.Idx → EReal := fun j =>
  Rbf.readout (argX m c) (argC m c) (argS m c) (argW m c) (j 0) (krow (j 1))

theorem zero_offsets : (![0, 0] : Fin 2 → Nat) = fun _ => 0 := funext fun a => by fin_cases a <;> rfl

/-- Where each window's block sits at point `t`: the input rows and the output rows move with the point, everything
    else stays at the origin. Decided over the 64 points. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 64 := by
  have hN : grid0.N = 64 := N_0
  have ht : t.val < grid0.N := t.isLt
  rw [hN] at ht
  exact ht

/-- The blocks a point sees, at their literal types. -/
abbrev rowsB (c : Dev nD) (t : Fin cfg0.N) : FVec Ideal S2048x60 .f32 := iblk m c 0 t
abbrev centresB (c : Dev nD) (t : Fin cfg0.N) : FVec Ideal S256x60 .f32 := iblk m c 1 t
abbrev widthsB (c : Dev nD) (t : Fin cfg0.N) : FVec Ideal S1x256 .f32 := iblk m c 2 t
abbrev normsB (c : Dev nD) (t : Fin cfg0.N) : FVec Ideal S1x256 .f32 := iblk m c 3 t
abbrev weightsB (c : Dev nD) (t : Fin cfg0.N) : FVec Ideal S256x360 .f32 := iblk m c 4 t

/-- Row `p` of point `t`'s input block is row `2048·t + p` of the input. -/
theorem rowsB_apply (c : Dev nD) (t : Fin cfg0.N) (p : Fin 2048) (k : Fin 60) :
    rowsB m c t (ix2 p k)
      = argX m c (ix2 (⟨t.val * 2048 + p.val, by have := point_lt t; have := p.isLt; omega⟩ : Fin 131072) k) := by
  obtain ⟨e0, e1, -⟩ := block_indices t
  show V m c main_arg0 (((cfg0.win 0).blk t).view.emb (ix2 p k)) = _
  rw [V_main_arg0]
  refine congrArg (argX m c) (funext fun a => Fin.ext ?_)
  match a with
  | ⟨0, _⟩ => show win0_0.index t (0 : Fin 2) * 2048 + 1 * p.val = t.val * 2048 + p.val; omega
  | ⟨1, _⟩ => show win0_0.index t (1 : Fin 2) * 60 + 1 * k.val = k.val; omega

/-- The centres are seen whole. -/
theorem centresB_apply (c : Dev nD) (t : Fin cfg0.N) (h : Fin 256) (k : Fin 60) :
    centresB m c t (ix2 h k) = argC m c (ix2 h k) := by
  obtain ⟨-, -, e0, e1, -⟩ := block_indices t
  show V m c main_arg1 (((cfg0.win 1).blk t).view.emb (ix2 h k)) = _
  rw [V_main_arg1]
  refine congrArg (argC m c) (funext fun a => Fin.ext ?_)
  match a with
  | ⟨0, _⟩ => show win0_1.index t (0 : Fin 2) * 256 + 1 * h.val = h.val; omega
  | ⟨1, _⟩ => show win0_1.index t (1 : Fin 2) * 60 + 1 * k.val = k.val; omega

/-- The row of squared widths is seen whole. -/
theorem widthsB_apply (c : Dev nD) (t : Fin cfg0.N) (h : Fin 256) :
    widthsB m c t (ix2 (0 : Fin 1) h) = argS m c (ix1 h) * argS m c (ix1 h) := by
  obtain ⟨-, -, -, -, e0, e1, -⟩ := block_indices t
  have e : ((cfg0.win 2).blk t).view.emb (ix2 (0 : Fin 1) h) = ix2 (0 : Fin 1) h := funext fun a => Fin.ext (by
    match a with
    | ⟨0, _⟩ => show win0_2.index t (0 : Fin 2) * 1 + 1 * 0 = 0; omega
    | ⟨1, _⟩ => show win0_2.index t (1 : Fin 2) * 256 + 1 * h.val = h.val; omega)
  show V m c main_call0_v12 (((cfg0.win 2).blk t).view.emb (ix2 (0 : Fin 1) h)) = _
  rw [e]
  exact widths_apply m c h

/-- The row of the centres' squared norms is seen whole. -/
theorem normsB_apply (c : Dev nD) (t : Fin cfg0.N) (h : Fin 256) :
    normsB m c t (ix2 (0 : Fin 1) h) = Rbf.sqnorm (fun k => argC m c (ix2 h k)) := by
  obtain ⟨-, -, -, -, -, -, e0, e1, -⟩ := block_indices t
  have e : ((cfg0.win 3).blk t).view.emb (ix2 (0 : Fin 1) h) = ix2 (0 : Fin 1) h := funext fun a => Fin.ext (by
    match a with
    | ⟨0, _⟩ => show win0_3.index t (0 : Fin 2) * 1 + 1 * 0 = 0; omega
    | ⟨1, _⟩ => show win0_3.index t (1 : Fin 2) * 256 + 1 * h.val = h.val; omega)
  show V m c main_call0_v10 (((cfg0.win 3).blk t).view.emb (ix2 (0 : Fin 1) h)) = _
  rw [e]
  exact norms_apply m c h

/-- The rearranged weights are seen whole. -/
theorem weightsB_apply (c : Dev nD) (t : Fin cfg0.N) (h : Fin 256) (q : Fin 360) :
    weightsB m c t (ix2 h q) = argW m c (ix2 (krow q) h) := by
  obtain ⟨-, -, -, -, -, -, -, -, e0, e1, -⟩ := block_indices t
  have e : ((cfg0.win 4).blk t).view.emb (ix2 h q) = ix2 h q := funext fun a => Fin.ext (by
    match a with
    | ⟨0, _⟩ => show win0_4.index t (0 : Fin 2) * 256 + 1 * h.val = h.val; omega
    | ⟨1, _⟩ => show win0_4.index t (1 : Fin 2) * 360 + 1 * q.val = q.val; omega)
  show V m c main_call0_v7 (((cfg0.win 4).blk t).view.emb (ix2 h q)) = _
  rw [e]
  exact weights_apply m c h q

/-- Entry `(p, q)` of point `t`'s output block is entry `(2048·t + p, q)` of the output. -/
theorem out_emb (t : Fin cfg0.N) (p : Fin 2048) (q : Fin 360) :
    ((cfg0.win 5).blk t).view.emb (ix2 p q)
      = ix2 (⟨t.val * 2048 + p.val, by have := point_lt t; have := p.isLt; omega⟩ : Fin 131072) q := by
  obtain ⟨-, -, -, -, -, -, -, -, -, -, e0, e1⟩ := block_indices t
  refine funext fun a => Fin.ext ?_
  match a with
  | ⟨0, _⟩ => show win0_5.index t (0 : Fin 2) * 2048 + 1 * p.val = t.val * 2048 + p.val; omega
  | ⟨1, _⟩ => show win0_5.index t (1 : Fin 2) * 360 + 1 * q.val = q.val; omega

/-- WHAT POINT `t` WRITES BACK is block `t` of the flat output. -/
theorem flushed_eq (c : Dev nD) (t : Fin cfg0.N) :
    (dats m 0 c).flushed 5 t = ((cfg0.win 5).blk t).view.read (Elt Ideal) (flat m c) := by
  show (cfg0.win 5).cut (grid0.coords t) ((dats m 0 c).after 5 t) = _
  rw [after0_5]
  unfold out0_5
  rw [View.canon_unit_zero zero_offsets]
  simp only [View.ld_unit_zero (S := S2048x60) zero_offsets, View.ld_unit_zero (S := S256x60) zero_offsets,
    View.ld_unit_zero (S := S1x256) zero_offsets, View.ld_unit_zero (S := S256x360) zero_offsets]
  refine funext fun (y : S2048x360.Idx) => ?_
  obtain ⟨p, q, rfl⟩ : ∃ (p : Fin 2048) (q : Fin 360), y = ix2 p q := ⟨y 0, y 1, eq_ix2 y⟩
  show k0_pay1 (F := Ideal) (rowsB m c t) (centresB m c t) (normsB m c t) (widthsB m c t) (weightsB m c t) (ix2 p q)
      = flat m c (((cfg0.win 5).blk t).view.emb (ix2 p q))
  refine (Body.payload_apply (rowsB m c t) (centresB m c t) (normsB m c t) (widthsB m c t) (weightsB m c t) p q).trans ?_
  rw [out_emb]
  unfold flat Rbf.readout Rbf.feature
  refine Finset.sum_congr rfl fun h _ => ?_
  rw [normsB_apply, widthsB_apply, weightsB_apply]
  simp only [rowsB_apply, centresB_apply]

/-- An index of the output is in point `t`'s block iff each coordinate is in the block's range on its axis. -/
theorem mem_block (t : Fin cfg0.N) (i : S131072x360.Idx) :
    i ∈ ((cfg0.win 5).blk t).view.set
      ↔ ∀ a : Fin 2, win0_5.index t a * S2048x360.size a ≤ (i a).val ∧ (i a).val < win0_5.index t a * S2048x360.size a + S2048x360.size a := by
  show i ∈ ((View.whole main_call0_v13).slice (win0_5.rect t)).set ↔ _
  rw [View.set_slice_whole, Rect.mem_set_unit]
  exact Iff.rfl

/-- Every entry of the output is written back by some point: row `b` by point `b / 2048`. -/
theorem cover (i : S131072x360.Idx) :
    ∃ t : Fin cfg0.N, (cfg0.win 5).flush t = true ∧ i ∈ ((cfg0.win 5).blk t).view.set := by
  have hi0 : (i 0).val < 131072 := (i 0).isLt
  have hi1 : (i 1).val < 360 := (i 1).isLt
  have hN : grid0.N = 64 := N_0
  obtain ⟨t, ht⟩ : ∃ t : Fin cfg0.N, t.val = (i 0).val / 2048 :=
    ⟨⟨(i 0).val / 2048, by show (i 0).val / 2048 < grid0.N; rw [hN]; omega⟩, rfl⟩
  obtain ⟨-, -, -, -, -, -, -, -, -, -, e0, e1⟩ := block_indices t
  refine ⟨t, flush0_5 t, ?_⟩
  rw [mem_block]
  intro a
  match a with
  | ⟨0, _⟩ =>
    show win0_5.index t (0 : Fin 2) * 2048 ≤ (i 0).val ∧ (i 0).val < win0_5.index t (0 : Fin 2) * 2048 + 2048
    omega
  | ⟨1, _⟩ =>
    show win0_5.index t (1 : Fin 2) * 360 ≤ (i 1).val ∧ (i 1).val < win0_5.index t (1 : Fin 2) * 360 + 360
    omega

/-- THE OUTPUT ARRAY after the run. -/
theorem final (c : Dev nD) : (dats m 0 c).arrAt 5 cfg0.N = flat m c :=
  (dats m 0 c).arrAt_eq_of_cover 5 (flat m c) (fun t _ => flushed_eq m c t) cover

end Cert.KernelIdeal.Flat

end
-- ==== Proof.Result.lean ====
/-
  The kernel's result, and its run.

  After the region the host only reshapes the flat output `[131072, 360]` to `[131072, 30, 12]`: position `(r, q)` of a
  row is flat position `12·r + q`, and the weight row the table names for that position is `(r / 3)·36 + q·3 + r % 3` —
  the specification's `place r q`. So the result array ends at the specification of the arguments as launched.
-/
import proofs.«146891_j66649302499334_1_alg».proof.Proof.Flat
import Idealize.ShloMosaic.Lib.StableHlo.Run

set_option maxRecDepth 16384

noncomputable section

namespace Cert.KernelIdeal.Result

open Cert.KernelIdeal Cert.KernelIdeal.Gen Cert.KernelIdeal.Entry
open Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- The specification at the arguments as launched. -/
def spec (c : Dev nD) : S131072x30x12.Idx → EReal := Rbf.result (argX m c) (argC m c) (argS m c) (argW m c)

/-- The host tail is one reshape of the region's output array. -/
theorem tail_shape (c : Dev nD) :
    (Pipeline.afterTail₀ cfgs (dats m) 0 (V0 m) [hostOps1] c main_v0 : S131072x30x12.Idx → EReal)
      = shapeCast S131072x30x12
          (Pipeline.withArrays spec0 c (V0 m c) (fun w => (dats m 0 c).arrAt w cfg0.N) (Proc.devRef .tc main_call0_v13)
            : S131072x360.Idx → EReal)
          shapeCasts_S131072x360_S131072x30x12 := by
  unfold Pipeline.afterTail₀
  show StableHlo.after hostOps1 _ (Proc.devRef .tc main_v0) = _
  after_results
  rfl

/-- The result array after the run is the specification. -/
theorem tail_eq (c : Dev nD) :
    (Pipeline.afterTail₀ cfgs (dats m) 0 (V0 m) [hostOps1] c main_v0 : S131072x30x12.Idx → EReal) = spec m c := by
  rw [tail_shape]
  have hw : (Pipeline.withArrays spec0 c (V0 m c) (fun w => (dats m 0 c).arrAt w cfg0.N) (Proc.devRef .tc main_call0_v13)
      : S131072x360.Idx → EReal) = Flat.flat m c :=
    (Pipeline.withArrays_arr spec0 launch0.win.arr_inj c _ _ 5).trans (Flat.final m c)
  rw [hw]
  funext i
  obtain ⟨b, r, q, rfl⟩ : ∃ (b : Fin 131072) (r : Fin 30) (q : Fin 12), i = ix3 b r q := ⟨i 0, i 1, i 2, eq_ix3 i⟩
  rw [shapeCast_apply (Flat.flat m c) shapeCasts_S131072x360_S131072x30x12 (ix3 b r q)
    (ix2 b (⟨r.val * 12 + q.val, by have := r.isLt; have := q.isLt; omega⟩ : Fin 360)) (by
      rw [Shape.rowMajor_val_two, Shape.rowMajor_val_three]
      show b.val * 360 + (r.val * 12 + q.val) = (b.val * 30 + r.val) * 12 + q.val
      omega)]
  show Rbf.readout (argX m c) (argC m c) (argS m c) (argW m c) b (krow ⟨r.val * 12 + q.val, _⟩)
      = Rbf.readout (argX m c) (argC m c) (argS m c) (argW m c) b (Rbf.place r q)
  refine congrArg (Rbf.readout (argX m c) (argC m c) (argS m c) (argW m c) b) (Fin.ext ?_)
  exact Rbf.place_flat r.val q.val r.isLt q.isLt

/-- THE KERNEL'S RUN: every weakly fair execution terminates with the result at the specification and the arguments
    unchanged. -/
theorem run : θ_run defs (onTc (τ := τ) (main (F := Ideal))) ⟨m, fun _ => 0, ρ⟩ fun r => ∀ c : Dev nD,
      r.2.mem ((c.tc : Thread nD τ).loc main_v0) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v0 (Pipeline.mem_restRefs_of main_v0 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.lean ====
/-
  A radial-basis layer with a linear read-out: the kernel against its reference, over the extended reals.

  Both programs compute, for every input row `b`, centre `h` and output position `(r, q)`,
  `Σ_h exp (-(s_h·s_h) · max (|x_b|² + |c_h|² − 2·⟨x_b, c_h⟩) 0) · W[(r / 3)·36 + q·3 + r % 3, h]` (Proof/Spec.lean).
  The reference does so by host operations and ends with a reshape, an exchange of two axes and a reshape; the kernel
  gathers the rows of `W` through a literal table before its one region, contracts in blocks of 2048 rows, and ends with
  one reshape. A change of float format is the identity here, the kernel's `0 − s²` is the reference's negation, a sum
  started from zero is the sum, and the two layouts name the same row of `W` — a decided fact about the table and two
  lines of arithmetic. No step moves a factor across a sum or cancels, so the inputs' finiteness is never used.

  The three frames are the generated ones (the reference's is its generated run with the result dropped); no operation
  was rewritten when the kernel was idealized, so `preserves` is trivial.
-/
import proofs.«146891_j66649302499334_1_alg».proof.Defs
import proofs.«146891_j66649302499334_1_alg».proof.Proof.Gen.Kernel
import proofs.«146891_j66649302499334_1_alg».proof.Proof.Gen.Kernel.Skeleton
import proofs.«146891_j66649302499334_1_alg».proof.Proof.Gen.Kernel.Launch
import proofs.«146891_j66649302499334_1_alg».proof.Proof.Gen.Kernel.Points
import proofs.«146891_j66649302499334_1_alg».proof.Proof.Gen.Kernel.Frame
import proofs.«146891_j66649302499334_1_alg».proof.Proof.Gen.KernelIdeal
import proofs.«146891_j66649302499334_1_alg».proof.Proof.Gen.KernelIdeal.Skeleton
import proofs.«146891_j66649302499334_1_alg».proof.Proof.Gen.KernelIdeal.Launch
import proofs.«146891_j66649302499334_1_alg».proof.Proof.Gen.KernelIdeal.Points
import proofs.«146891_j66649302499334_1_alg».proof.Proof.Gen.KernelIdeal.Frame
import proofs.«146891_j66649302499334_1_alg».proof.Proof.Gen.ReferenceIdeal
import proofs.«146891_j66649302499334_1_alg».proof.Proof.Gen.ReferenceIdeal.Run
import proofs.«146891_j66649302499334_1_alg».proof.Proof.Gen.ReferenceIdeal.Read
import proofs.«146891_j66649302499334_1_alg».proof.Proof.Gen.Pre_finite_inputs
import proofs.«146891_j66649302499334_1_alg».proof.Proof.RefValue
import proofs.«146891_j66649302499334_1_alg».proof.Proof.Result
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the result at the specification of those
    arguments: the kernel by its run read through its blocks and its host tail, the reference by its generated run
    read stage by stage. -/
theorem algebraic : Cert.algebraic_KernelIdeal_ReferenceIdeal := by
  intro m ρ m' ρ' _ hagree
  refine ⟨fun c => Cert.KernelIdeal.Result.spec m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.result_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
